-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : FVec F S128x64 .f32) (main_arg2 : FVec F S64 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 20
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S5000x64_S5000x64 : S5000x64.ShapeCasts S5000x64
  shapeCasts_S64_S1x64 : S64.ShapeCasts S1x64
  broadcasts_S1x64_S5000x64 : S1x64.Broadcasts S5000x64
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
/-
  The graph convolution both programs compute, as functions of the argument arrays over the extended reals:
      h   = feats · weight                                   [50000, 64]
      agg = sum over the edges e with dst[e] = i of h[src[e]]  [50000, 64]   (a gather, then a scatter-add into zeros)
      out = max (agg + bias, 0)                              [50000, 64]
  `lin` is the product, `agg` the message passing (the edge list's source indices wrapped when negative, the
  gathered rows added onto the destination rows of an all-zero array), `act` the bias and the rectifier, `out`
  their composition. `lin` and `act` are also read at an index: the product is the plain sum over the 128
  contracted features, and the activation acts entry by entry with the bias read along the row.
-/
import proofs.«106353_j22874995818645_1_alg».proof.Proof.Gen.ReferenceIdeal
import proofs.«106353_j22874995818645_1_alg».proof.Proof.LibDot2
import Idealize.ShloMosaic.Lib.ValueIdx
import Idealize.ShloMosaic.Lib.ValueLayout
import Idealize.ShloMosaic.Lib.Pipeline.Value

noncomputable section

open scoped BigOperators

namespace Cert.Conv

open Idealize.ShloMosaic Idealize.ShloMosaic.ValueIdx
open Cert.ReferenceIdeal Cert.ReferenceIdeal.Facts₀

/-- The linear transform: the node features times the weight matrix. -/
def lin (A : FVec Ideal S50000x128 .f32) (B : FVec Ideal S128x64 .f32) :
    FVec Ideal S50000x64 .f32 :=
  Host.dotGeneral (F := Ideal) dot_S50000x128_S128x64_S50000x64_1_0_0_1_n_n none A B

/-- The message passing: row `src[e]` of `h` (a negative index counted from the end) for every edge `e`, added onto
    row `dst[e]` of an all-zero array. -/
def agg (h : FVec Ideal S50000x64 .f32) (src dst : IVec S800000 32) :
    FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The bias added along every row, then the rectifier. -/
def act (x : FVec Ideal S50000x64 .f32) (bias : FVec Ideal S64 .f32) :
    FVec Ideal S50000x64 .f32 :=
  maximumf
    (addf x (broadcastInDim S50000x64 ![0, 1] bcast_S1x64_S50000x64_0_1 (broadcastInDim S1x64 ![1] bcast_S64_S1x64_1 bias)))
    (broadcastInDim S50000x64 ![] bcast_S_S50000x64 (constant (F := Ideal) S_ .f32 0x00000000#32))

/-- The whole layer. -/
def out (A : FVec Ideal S50000x128 .f32) (B : FVec Ideal S128x64 .f32)
    (bias : FVec Ideal S64 .f32) (src dst : IVec S800000 32) :
    FVec Ideal S50000x64 .f32 :=
  act (agg (lin A B) src dst) bias

/-- The product at `(r, q)`: the sum over the 128 features of `feats[r, k] * weight[k, q]`. -/
theorem lin_apply (A : FVec Ideal S50000x128 .f32) (B : FVec Ideal S128x64 .f32)
    (r : Fin 50000) (q : Fin 64) :
    lin A B (ix2 r q) = ∑ k : Fin 128, A (ix2 r k) * B (ix2 k q) :=
  Dot2.host_dotGeneral_mm_apply (M := 50000) (K := 128) (N := 64) dot_S50000x128_S128x64_S50000x64_1_0_0_1_n_n_wf none A B r q

/-- The bias row read at `(r, q)` through its two broadcasts is `bias[q]`. -/
theorem bias_row_apply (bias : FVec Ideal S64 .f32) (r : Fin 50000) (q : Fin 64) :
    broadcastInDim S50000x64 ![0, 1] bcast_S1x64_S50000x64_0_1 (broadcastInDim S1x64 ![1] bcast_S64_S1x64_1 bias) (ix2 r q)
      = bias (ix1 q) := by
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- The activation at `(r, q)`: `max (x[r, q] + bias[q], 0)`. -/
theorem act_apply (x : FVec Ideal S50000x64 .f32) (bias : FVec Ideal S64 .f32)
    (r : Fin 50000) (q : Fin 64) :
    act x bias (ix2 r q) = max (x (ix2 r q) + bias (ix1 q)) (Ideal.ofBits .f32 0x00000000#32) := by
  unfold act
  rw [maximumf_apply, addf_apply, bias_row_apply]
  rfl

end Cert.Conv

end
-- ==== Proof.Payloads.lean ====
/-
  What the two kernel bodies store, read at an index over the extended reals.
  The first body multiplies its 5000 rows of features by the whole weight matrix (the operands' change of float
  format is the identity, the accumulator starts at zero): at `(p, q)` the sum over the 128 features of
  `x[p, k] * w[k, q]`. The second adds the bias along each of its 5000 rows and takes the maximum with zero:
  at `(p, q)`, `max (x[p, q] + b[q], 0)`.
-/
import proofs.«106353_j22874995818645_1_alg».proof.Proof.Gen.KernelIdeal.Skeleton
import proofs.«106353_j22874995818645_1_alg».proof.Proof.LibDot2
import Idealize.ShloMosaic.Lib.ValueIdx
import Idealize.ShloMosaic.Lib.ValueLayout
import Idealize.ShloMosaic.Lib.Pipeline.Value

noncomputable section

open scoped BigOperators

namespace Cert.Conv

open Idealize.ShloMosaic Idealize.ShloMosaic.ValueIdx
open Cert.KernelIdeal Cert.KernelIdeal.Gen

/-- The product body's store at `(p, q)`: the sum over the features of its rows' entries times the weights'. -/
theorem matmul_block (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Dot2.matmul_zero_mm_apply (M := 5000) (K := 128) (N := 64)
    Cert.KernelIdeal.Gen.dot_S5000x128_S128x64_S5000x64_1_0_0_1_n_n_wf none _ _ p q

/-- The activation body's store at `(p, q)`: the entry plus the bias of its column, against zero. -/
theorem bias_relu_block (v0 : Vec Ideal S64 .f32) (v1 : Vec Ideal S5000x64 .f32) (p : Fin 5000) (q : Fin 64) :
    k1_pay1 v0 v1 (ix2 p q) = max (v1 (ix2 p q) + v0 (ix1 q)) (Ideal.ofBits .f32 0x00000000#32) := by
  unfold k1_pay1
  rw [maximumf_apply, addf_apply, shapeCast_self, broadcastTo_1b_ab_apply, shapeCast_a_1a_apply, broadcast_apply]
  rfl

end Cert.Conv

end
-- ==== Proof.LinValue.lean ====
/-
  The first region: ten grid points, point `t` taking rows `5000 t … 5000 t + 4999` of the features and the whole
  weight matrix and writing rows `5000 t … 5000 t + 4999` of `h`. Whatever the buffers hold when the region is
  entered, what point `t` writes back is block `t` of the product of the two argument arrays; the ten row blocks
  tile the array; so the array ends holding the product.
-/
import proofs.«106353_j22874995818645_1_alg».proof.Proof.Gen.KernelIdeal.Frame
import proofs.«106353_j22874995818645_1_alg».proof.Proof.Spec
import proofs.«106353_j22874995818645_1_alg».proof.Proof.Payloads
import Idealize.ShloMosaic.Lib.Pipeline.Value

set_option maxRecDepth 16384

noncomputable section

open scoped BigOperators

namespace Cert.Conv.Lin

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's windows move down one block of rows per
    point, the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The arrays the region reads and the blocks a point is given, at their literal types. -/
abbrev feats (c : Dev nD) : FVec Ideal S50000x128 .f32 := V c main_arg0
abbrev weight (c : Dev nD) : FVec Ideal S128x64 .f32 := V c main_arg1
abbrev featsBlk (c : Dev nD) (t : Fin cfg0.N) : Vec Ideal S5000x128 .f32 := iblk0 V c 0 t
abbrev weightBlk (c : Dev nD) (t : Fin cfg0.N) : Vec Ideal S128x64 .f32 := iblk0 V c 1 t

/-- Row `p` of point `t`'s block of features is row `5000 t + p` of the array. -/
theorem featsBlk_apply (c : Dev nD) (t : Fin cfg0.N) (p : Fin 5000) (k : Fin 128) (r : Fin 50000)
    (hr : r.val = t.val * 5000 + p.val) : featsBlk V c t (ix2 p k) = feats V c (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Every point's block of weights is the whole matrix. -/
theorem weightBlk_apply (c : Dev nD) (t : Fin cfg0.N) (k : Fin 128) (q : Fin 64) :
    weightBlk V c t (ix2 k q) = weight V c (ix2 k q) := by
  obtain ⟨-, -, e2, e3, -⟩ := idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- What point `t` writes back is block `t` of the product of the two arrays. -/
theorem flushed_eq (c : Dev nD) (t : Fin cfg0.N) :
    (dat0 V c).flushed 2 t = ((cfg0.win 2).blk t).view.read (Elt Ideal) (lin (feats V c) (weight V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  obtain ⟨-, -, -, -, e4, e5⟩ := idx_facts t
  have ht : t.val < 10 := by have h1 := t.isLt; have h2 : cfg0.N = 10 := N_0; omega
  have hr : t.val * 5000 + p.val < 50000 := by have := p.isLt; omega
  have hemb : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (featsBlk V c t) (weightBlk V c t) (ix2 p q)
    = lin (feats V c) (weight V c) (((cfg0.win 2).blk t).view.emb (ix2 p q))
  rw [hemb, lin_apply]
  refine (matmul_block (featsBlk V c t) (weightBlk V c t) p q).trans (Finset.sum_congr rfl fun k _ => ?_)
  rw [featsBlk_apply V c t p k ⟨t.val * 5000 + p.val, hr⟩ rfl, weightBlk_apply V c t k q]

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` lies in the block of point `r / 5000`: the ten blocks tile the array. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- After the region its result array holds the product of the two arrays it read. -/
theorem final (c : Dev nD) : (dat0 V c).arrAt 2 cfg0.N = lin (feats V c) (weight V c) :=
  (dat0 V c).arrAt_eq_of_cover 2 (lin (feats V c) (weight V c)) (fun t _ => flushed_eq V c t) cover

end Cert.Conv.Lin

end
-- ==== Proof.ActValue.lean ====
/-
  The second region: ten grid points, point `t` taking rows `5000 t … 5000 t + 4999` of the aggregated messages and
  the whole bias vector and writing the same rows of the result. Whatever the buffers hold when the region is
  entered, what point `t` writes back is block `t` of `max (agg + bias, 0)` of the two arrays it reads; the ten row
  blocks tile the array; so the array ends holding the activation of what the region found.
-/
import proofs.«106353_j22874995818645_1_alg».proof.Proof.Gen.KernelIdeal.Frame
import proofs.«106353_j22874995818645_1_alg».proof.Proof.Spec
import proofs.«106353_j22874995818645_1_alg».proof.Proof.Payloads
import Idealize.ShloMosaic.Lib.Pipeline.Value

set_option maxRecDepth 16384

noncomputable section

namespace Cert.Conv.Act

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the messages' and the result's windows move down one block of rows per
    point, the bias' window stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The arrays the region reads and the blocks a point is given, at their literal types. -/
abbrev msgs (c : Dev nD) : FVec Ideal S50000x64 .f32 := V c main_v10
abbrev bias (c : Dev nD) : FVec Ideal S64 .f32 := V c main_arg2
abbrev msgsBlk (c : Dev nD) (t : Fin cfg1.N) : Vec Ideal S5000x64 .f32 := iblk1 V c 0 t
abbrev biasBlk (c : Dev nD) (t : Fin cfg1.N) : Vec Ideal S64 .f32 := iblk1 V c 1 t

/-- Row `p` of point `t`'s block of messages is row `5000 t + p` of the array. -/
theorem msgsBlk_apply (c : Dev nD) (t : Fin cfg1.N) (p : Fin 5000) (q : Fin 64) (r : Fin 50000)
    (hr : r.val = t.val * 5000 + p.val) : msgsBlk V c t (ix2 p q) = msgs V c (ix2 r q) := by
  obtain ⟨e0, e1, -⟩ := idx_facts t
  show V c main_v10 (((cfg1.win 0).blk t).view.emb (ix2 p q)) = V c main_v10 (ix2 r q)
  refine congrArg (V c main_v10) (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega

/-- Every point's block of the bias is the whole vector. -/
theorem biasBlk_apply (c : Dev nD) (t : Fin cfg1.N) (q : Fin 64) :
    biasBlk V c t (ix1 q) = bias V c (ix1 q) := by
  obtain ⟨-, -, e2, -⟩ := idx_facts t
  show V c main_arg2 (((cfg1.win 1).blk t).view.emb (ix1 q)) = V c main_arg2 (ix1 q)
  refine congrArg (V c main_arg2) (funext fun a => Fin.ext ?_)
  match a with
  | ⟨0, _⟩ => show win1_1.index t (0 : Fin 1) * 64 + 1 * q.val = q.val; omega

/-- What point `t` writes back is block `t` of the activation of the two arrays. -/
theorem flushed_eq (c : Dev nD) (t : Fin cfg1.N) :
    (dat1 V c).flushed 2 t = ((cfg1.win 2).blk t).view.read (Elt Ideal) (act (msgs V c) (bias V c)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64) hz1]
  funext j
  obtain ⟨p, q, rfl⟩ : ∃ (p : Fin 5000) (q : Fin 64), j = ix2 p q := ⟨j 0, j 1, eq_ix2 j⟩
  obtain ⟨-, -, -, e3, e4⟩ := idx_facts t
  have ht : t.val < 10 := by have h1 := t.isLt; have h2 : cfg1.N = 10 := N_1; omega
  have hr : t.val * 5000 + p.val < 50000 := by have := p.isLt; omega
  have hemb : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  show k1_pay1 (biasBlk V c t) (msgsBlk V c t) (ix2 p q)
    = act (msgs V c) (bias V c) (((cfg1.win 2).blk t).view.emb (ix2 p q))
  rw [hemb, act_apply]
  refine (bias_relu_block (biasBlk V c t) (msgsBlk V c t) p q).trans ?_
  rw [msgsBlk_apply V c t p q ⟨t.val * 5000 + p.val, hr⟩ rfl, biasBlk_apply V c t q]

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v11).slice (win1_2.rect t)).set ↔ _
  rw [View.set_slice_whole, Rect.mem_set_unit]
  exact Iff.rfl

/-- Row `r` lies in the block of point `r / 5000`: the ten blocks tile the array. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_2 _, ?_⟩
  rw [mem_blk]
  obtain ⟨-, -, -, e3, e4⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e3]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e4]; omega

/-- After the region its result array holds the activation of the two arrays it read. -/
theorem final (c : Dev nD) : (dat1 V c).arrAt 2 cfg1.N = act (msgs V c) (bias V c) :=
  (dat1 V c).arrAt_eq_of_cover 2 (act (msgs V c) (bias V c)) (fun t _ => flushed_eq V c t) cover

end Cert.Conv.Act

end
-- ==== Proof.KernelValue.lean ====
/-
  The kernel program's result as a function of its launch arguments, over the extended reals.
  The contents of the buffers at the four segment boundaries of @main are a fold from the launch memory: the first
  region leaves `h = feats · weight` in its result array and every other buffer as it was; the host operations
  between the regions leave `agg h src dst` in the messages' array and touch no argument; the second region leaves
  `max (agg + bias, 0)` in the result buffer. Read back through the fold, the result buffer holds `out` of the five
  argument arrays as launched.
-/
import proofs.«106353_j22874995818645_1_alg».proof.Proof.Gen.KernelIdeal.Frame
import proofs.«106353_j22874995818645_1_alg».proof.Proof.Spec
import proofs.«106353_j22874995818645_1_alg».proof.Proof.LinValue
import proofs.«106353_j22874995818645_1_alg».proof.Proof.ActValue
import Idealize.ShloMosaic.Lib.StableHlo.Run

set_option maxRecDepth 16384

noncomputable section

namespace Cert.Conv.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region its result array holds the product of the launch's features and weights. -/
theorem h_eq (c : Dev nD) :
    V1 m ρ c main_v0 = lin (m ((c.tc : Thread nD τ).loc main_arg0)) (m ((c.tc : Thread nD τ).loc main_arg1)) :=
  (W1_arr m ρ c 2).trans (Lin.final (V0 m ρ) c)

/-- The first region leaves the source indices as launched. -/
theorem src_eq (c : Dev nD) : V1 m ρ c main_arg3 = m ((c.tc : Thread nD τ).loc main_arg3) :=
  W1_of_ne m ρ c main_arg3 (by decide)

/-- The first region leaves the destination indices as launched. -/
theorem dst_eq (c : Dev nD) : V1 m ρ c main_arg4 = m ((c.tc : Thread nD τ).loc main_arg4) :=
  W1_of_ne m ρ c main_arg4 (by decide)

/-- When the second region is entered the bias is as launched: the region itself leaves it in place, and it ends
    as launched. -/
theorem bias_eq (c : Dev nD) : V2 m ρ c main_arg2 = m ((c.tc : Thread nD τ).loc main_arg2) :=
  ((W3_arr m ρ c 1).trans (((dat1 (V2 m ρ) c).arrAt_in 1 rfl _).trans (A_eq1 (V2 m ρ) c 1))).symm.trans
    (W3_main_arg2 m ρ c)

/-- The host operations between the regions: the messages' array is `agg` of what the first region left. -/
theorem msgs_eq (c : Dev nD) :
    V2 m ρ c main_v10 = agg (V1 m ρ c main_v0) (V1 m ρ c main_arg3) (V1 m ρ c main_arg4) := by
  show StableHlo.after hostOps1 (W1 m ρ c) (Proc.devRef .tc main_v10) = _
  after_results <;> rfl

/-- The result buffer after the run is `out` of the argument arrays as launched. -/
theorem result (c : Dev nD) :
    V3 m ρ c main_v11 = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine ((W3_arr m ρ c 2).trans (Act.final (V2 m ρ) c)).trans ?_
  show act (V2 m ρ c main_v10) (V2 m ρ c main_arg2) = _
  rw [msgs_eq m ρ c, bias_eq m ρ c, h_eq m ρ c, src_eq m ρ c, dst_eq m ρ c]
  rfl

end Cert.Conv.Kernel

end
-- ==== Proof.RefValue.lean ====
/-
  The reference program's result as a function of its launch arguments, over the extended reals: its run ends with
  the result buffer at the composition of its host operations, and that composition is `out` — the product, the
  message passing, the bias and the rectifier, in that order.
-/
import proofs.«106353_j22874995818645_1_alg».proof.Defs
import proofs.«106353_j22874995818645_1_alg».proof.Proof.Gen.ReferenceIdeal.Run
import proofs.«106353_j22874995818645_1_alg».proof.Proof.Spec

noncomputable section

namespace Cert.Conv.Reference

open Idealize.ShloMosaic Idealize.ShloMosaic.TcCoe Idealize.SL.Sem
open Cert.ReferenceIdeal

variable (m : (ℓ : Loc nD τ sig) → Buf (Elt Ideal) ℓ) (ρ : Dev nD → PrngReg)

/-- Every weakly fair execution of the reference terminates without a fault, its result buffer at `out` of the
    argument arrays as launched and the arguments unchanged. -/
theorem run : θ_run (defs (F := Ideal)) (onTc (τ := τ) (main (F := Ideal))) ⟨m, fun _ => 0, ρ⟩ fun r => ∀ c : Dev nD,
      r.2.mem ((c.tc : Thread nD τ).loc main_v14) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

end Cert.Conv.Reference

end
-- ==== Proof.lean ====
/-
  A graph-convolution layer: `out = max (agg + bias, 0)` where `agg` sums, onto each destination node, the rows
  `h[src[e]]` of `h = feats · weight` over the edges `e` that end there.
  The kernel program computes `h` in a first region (ten blocks of 5000 rows, each a product with the whole weight
  matrix accumulated from zero), gathers and scatter-adds on the host, and applies the bias and the rectifier in a
  second region (again ten blocks of 5000 rows). The reference is the same layer as host operations throughout.
  Over the extended reals the product accumulated from zero is the host's product (one sum over the 128 features,
  no rounding and no order left in it); the host operations between the regions are the reference's own; and the
  activation acts entry by entry with the bias read along the row in both. So both programs end with `Conv.out` of
  the argument arrays. No law used needs the inputs finite.
-/
import proofs.«106353_j22874995818645_1_alg».proof.Defs
import proofs.«106353_j22874995818645_1_alg».proof.Proof.Gen.Kernel
import proofs.«106353_j22874995818645_1_alg».proof.Proof.Gen.Kernel.Frame
import proofs.«106353_j22874995818645_1_alg».proof.Proof.Gen.KernelIdeal
import proofs.«106353_j22874995818645_1_alg».proof.Proof.Gen.KernelIdeal.Frame
import proofs.«106353_j22874995818645_1_alg».proof.Proof.Gen.ReferenceIdeal
import proofs.«106353_j22874995818645_1_alg».proof.Proof.Gen.ReferenceIdeal.Run
import proofs.«106353_j22874995818645_1_alg».proof.Proof.Gen.Pre_finite_inputs
import proofs.«106353_j22874995818645_1_alg».proof.Proof.KernelIdealRun
import proofs.«106353_j22874995818645_1_alg».proof.Proof.KernelValue
import proofs.«106353_j22874995818645_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The kernel program over the extended reals runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with `Conv.out` of the arguments. -/
theorem algebraic : Cert.algebraic_KernelIdeal_ReferenceIdeal := by
  intro m ρ m' ρ' _ hagree
  refine ⟨fun c => Cert.Conv.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Conv.Kernel.result m ρ c), (h c).2⟩)
      (Cert.KernelIdeal.Result.run (F := Ideal) m ρ)
  · refine (θ_run Cert.ReferenceIdeal.defs _ _).mono (fun _ h c => ⟨(h c).1.trans ?_, (h c).2⟩)
      (Cert.Conv.Reference.run m' ρ')
    obtain ⟨e0, e1, e2, e3, e4⟩ := hagree c
    rw [e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
